-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x128 : Shape := ⟨3, ![512, 512, 128]⟩
abbrev S512x512 : Shape := ⟨2, ![512, 512]⟩
abbrev S_ : Shape := ⟨0, ![]⟩

class Facts : Prop where
  bcast_S_S512x512x128 : S_.BroadcastsInDim S512x512x128 (![] : Fin 0 → Fin S512x512x128.rank)
  reducesTo_S512x512x128_S_d0_1_2 : S512x512x128.ReducesTo [0, 1, 2] S_
  h_S_ : 0 < S_.numel

variable [Facts]

def fn {F : FTy → Type} [FloatOps F] (main_arg0 : FVec F S512x512x128 .f32) (main_arg1 : IVec S512x512 32) : IVec S_ 1 :=
  let main_v0 : FVec F S512x512x128 .f32 := Host.absf main_arg0
  let main_cst : FVec F S_ .f32 := constant S_ .f32 0x7F800000#32
  let main_v1 : FVec F S512x512x128 .f32 := broadcastInDim S512x512x128 ![] bcast_S_S512x512x128 main_cst
  let main_v2 : IVec S512x512x128 1 := cmpf .olt main_v0 main_v1
  let main_c : IVec S_ 1 := constantI S_ 1 1#1
  let main_v3 : IVec S_ 1 := (fun x v => Host.reduce IntOp.andi x v reducesTo_S512x512x128_S_d0_1_2 h_S_) main_v2 main_c
  main_v3
-- ==== Kernel.lean ====
abbrev S512x512x128 : Shape := ⟨3, ![512, 512, 128]⟩
abbrev S512x512 : Shape := ⟨2, ![512, 512]⟩
abbrev S262144x128 : Shape := ⟨2, ![262144, 128]⟩
abbrev S262144 : Shape := ⟨1, ![262144]⟩
abbrev S_ : Shape := ⟨0, ![]⟩
abbrev S513x128 : Shape := ⟨2, ![513, 128]⟩
abbrev S262144x1 : Shape := ⟨2, ![262144, 1]⟩
abbrev S512x128 : Shape := ⟨2, ![512, 128]⟩
abbrev S1x512x128 : Shape := ⟨3, ![1, 512, 128]⟩
abbrev S4x512x128 : Shape := ⟨3, ![4, 512, 128]⟩
abbrev S4x512x512x128 : Shape := ⟨4, ![4, 512, 512, 128]⟩
abbrev S1x32x512x128 : Shape := ⟨4, ![1, 32, 512, 128]⟩
abbrev S1x1x512x128 : Shape := ⟨4, ![1, 1, 512, 128]⟩

abbrev nBuf : Space → Nat
  | .hbm => 158
  | .vmem => 4
  | .smem => 0
  | _ => 0

abbrev hbmTy0_0 (i : Nat) : BufTy := match i % 128 with
  | 0 => ⟨S512x512x128, .f32⟩
  | 1 => ⟨S512x512, .i32⟩
  | 2 => ⟨S262144x128, .f32⟩
  | 3 => ⟨S262144, .i32⟩
  | 4 => ⟨S_, .i32⟩
  | 5 => ⟨S262144, .i32⟩
  | 6 => ⟨S262144, .i1⟩
  | 7 => ⟨S262144, .i32⟩
  | 8 => ⟨S_, .i32⟩
  | 9 => ⟨S_, .i32⟩
  | 10 => ⟨S262144, .i32⟩
  | 11 => ⟨S_, .i32⟩
  | 12 => ⟨S262144, .i32⟩
  | 13 => ⟨S262144, .i32⟩
  | 14 => ⟨S262144, .i32⟩
  | 15 => ⟨S_, .i32⟩
  | 16 => ⟨S_, .i32⟩
  | 17 => ⟨S_, .i32⟩
  | 18 => ⟨S_, .i32⟩
  | 19 => ⟨S262144, .i32⟩
  | 20 => ⟨S262144, .i32⟩
  | 21 => ⟨S_, .i32⟩
  | 22 => ⟨S262144, .i32⟩
  | 23 => ⟨S262144, .i1⟩
  | 24 => ⟨S262144, .i1⟩
  | 25 => ⟨S_, .i32⟩
  | 26 => ⟨S_, .i32⟩
  | 27 => ⟨S262144, .i32⟩
  | 28 => ⟨S262144, .i32⟩
  | 29 => ⟨S_, .f32⟩
  | 30 => ⟨S513x128, .f32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S513x128, .f32⟩
  | 40 => ⟨S512x128, .f32⟩
  | 41 => ⟨S_, .i32⟩
  | 42 => ⟨S262144, .i32⟩
  | 43 => ⟨S262144, .i1⟩
  | 44 => ⟨S262144, .i32⟩
  | 45 => ⟨S_, .i32⟩
  | 46 => ⟨S_, .i32⟩
  | 47 => ⟨S262144, .i32⟩
  | 48 => ⟨S_, .i32⟩
  | 49 => ⟨S262144, .i32⟩
  | 50 => ⟨S262144, .i32⟩
  | 51 => ⟨S262144, .i32⟩
  | 52 => ⟨S_, .i32⟩
  | 53 => ⟨S_, .i32⟩
  | 54 => ⟨S_, .i32⟩
  | 55 => ⟨S_, .i32⟩
  | 56 => ⟨S262144, .i32⟩
  | 57 => ⟨S262144, .i32⟩
  | 58 => ⟨S_, .i32⟩
  | 59 => ⟨S262144, .i32⟩
  | 60 => ⟨S262144, .i1⟩
  | 61 => ⟨S262144, .i1⟩
  | 62 => ⟨S_, .i32⟩
  | 63 => ⟨S_, .i32⟩
  | 64 => ⟨S262144, .i32⟩
  | 65 => ⟨S262144, .i32⟩
  | 66 => ⟨S_, .f32⟩
  | 67 => ⟨S513x128, .f32⟩
  | 68 => ⟨S_, .i32⟩
  | 69 => ⟨S262144, .i32⟩
  | 70 => ⟨S262144, .i1⟩
  | 71 => ⟨S_, .i32⟩
  | 72 => ⟨S262144, .i32⟩
  | 73 => ⟨S262144, .i32⟩
  | 74 => ⟨S262144, .i32⟩
  | 75 => ⟨S262144x1, .i32⟩
  | 76 => ⟨S513x128, .f32⟩
  | 77 => ⟨S512x128, .f32⟩
  | 78 => ⟨S_, .i32⟩
  | 79 => ⟨S262144, .i32⟩
  | 80 => ⟨S262144, .i1⟩
  | 81 => ⟨S262144, .i32⟩
  | 82 => ⟨S_, .i32⟩
  | 83 => ⟨S_, .i32⟩
  | 84 => ⟨S262144, .i32⟩
  | 85 => ⟨S_, .i32⟩
  | 86 => ⟨S262144, .i32⟩
  | 87 => ⟨S262144, .i32⟩
  | 88 => ⟨S262144, .i32⟩
  | 89 => ⟨S_, .i32⟩
  | 90 => ⟨S_, .i32⟩
  | 91 => ⟨S_, .i32⟩
  | 92 => ⟨S_, .i32⟩
  | 93 => ⟨S262144, .i32⟩
  | 94 => ⟨S262144, .i32⟩
  | 95 => ⟨S_, .i32⟩
  | 96 => ⟨S262144, .i32⟩
  | 97 => ⟨S262144, .i1⟩
  | 98 => ⟨S262144, .i1⟩
  | 99 => ⟨S_, .i32⟩
  | 100 => ⟨S_, .i32⟩
  | 101 => ⟨S262144, .i32⟩
  | 102 => ⟨S262144, .i32⟩
  | 103 => ⟨S_, .f32⟩
  | 104 => ⟨S513x128, .f32⟩
  | 105 => ⟨S_, .i32⟩
  | 106 => ⟨S262144, .i32⟩
  | 107 => ⟨S262144, .i1⟩
  | 108 => ⟨S_, .i32⟩
  | 109 => ⟨S262144, .i32⟩
  | 110 => ⟨S262144, .i32⟩
  | 111 => ⟨S262144, .i32⟩
  | 112 => ⟨S262144x1, .i32⟩
  | 113 => ⟨S513x128, .f32⟩
  | 114 => ⟨S512x128, .f32⟩
  | 115 => ⟨S_, .i32⟩
  | 116 => ⟨S262144, .i32⟩
  | 117 => ⟨S262144, .i1⟩
  | 118 => ⟨S262144, .i32⟩
  | 119 => ⟨S_, .i32⟩
  | 120 => ⟨S_, .i32⟩
  | 121 => ⟨S262144, .i32⟩
  | 122 => ⟨S_, .i32⟩
  | 123 => ⟨S262144, .i32⟩
  | 124 => ⟨S262144, .i32⟩
  | 125 => ⟨S262144, .i32⟩
  | 126 => ⟨S_, .i32⟩
  | 127 => ⟨S_, .i32⟩
  | _ => ⟨S512x512x128, .f32⟩

abbrev hbmTy0_1 (i : Nat) : BufTy := match i % 128 with
  | 0 => ⟨S_, .i32⟩
  | 1 => ⟨S_, .i32⟩
  | 2 => ⟨S262144, .i32⟩
  | 3 => ⟨S262144, .i32⟩
  | 4 => ⟨S_, .i32⟩
  | 5 => ⟨S262144, .i32⟩
  | 6 => ⟨S262144, .i1⟩
  | 7 => ⟨S262144, .i1⟩
  | 8 => ⟨S_, .i32⟩
  | 9 => ⟨S_, .i32⟩
  | 10 => ⟨S262144, .i32⟩
  | 11 => ⟨S262144, .i32⟩
  | 12 => ⟨S_, .f32⟩
  | 13 => ⟨S513x128, .f32⟩
  | 14 => ⟨S_, .i32⟩
  | 15 => ⟨S262144, .i32⟩
  | 16 => ⟨S262144, .i1⟩
  | 17 => ⟨S_, .i32⟩
  | 18 => ⟨S262144, .i32⟩
  | 19 => ⟨S262144, .i32⟩
  | 20 => ⟨S262144, .i32⟩
  | 21 => ⟨S262144x1, .i32⟩
  | 22 => ⟨S513x128, .f32⟩
  | 23 => ⟨S512x128, .f32⟩
  | 24 => ⟨S1x512x128, .f32⟩
  | 25 => ⟨S1x512x128, .f32⟩
  | 26 => ⟨S1x512x128, .f32⟩
  | 27 => ⟨S1x512x128, .f32⟩
  | 28 => ⟨S4x512x128, .f32⟩
  | 29 => ⟨S4x512x512x128, .f32⟩
  | _ => ⟨S512x512x128, .f32⟩

abbrev hbmTy (i : Nat) : BufTy := match i / 128 with
  | 0 => hbmTy0_0 i
  | 1 => hbmTy0_1 i
  | _ => ⟨S512x512x128, .f32⟩

abbrev bufTy : (tb : Table) → Fin (tcTables nBuf tb) → BufTy
  | .hbm, ⟨i, _⟩ => hbmTy i
  | .local _ .vmem, ⟨0, _⟩ => ⟨S1x512x128, .f32⟩
  | .local _ .vmem, ⟨1, _⟩ => ⟨S1x512x128, .f32⟩
  | .local _ .vmem, ⟨2, _⟩ => ⟨S1x32x512x128, .f32⟩
  | .local _ .vmem, ⟨3, _⟩ => ⟨S1x32x512x128, .f32⟩
  | _, _ => ⟨S512x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_call0_c : Ref sig .tc := ⟨.hbm, 8, rfl⟩
abbrev main_call0_call0_v0 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_call1_v0 : Ref sig .tc := ⟨.hbm, 26, rfl⟩
abbrev main_call1_v1 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call2_call0_c : Ref sig .tc := ⟨.hbm, 45, rfl⟩
abbrev main_call2_call0_v0 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_c_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_12 : Ref sig .tc := ⟨.hbm, 62, rfl⟩
abbrev main_call3_v0 : Ref sig .tc := ⟨.hbm, 63, rfl⟩
abbrev main_call3_v1 : Ref sig .tc := ⟨.hbm, 64, rfl⟩
abbrev main_v40 : Ref sig .tc := ⟨.hbm, 65, rfl⟩
abbrev main_cst_13 : Ref sig .tc := ⟨.hbm, 66, rfl⟩
abbrev main_v41 : Ref sig .tc := ⟨.hbm, 67, rfl⟩
abbrev main_c_14 : Ref sig .tc := ⟨.hbm, 68, rfl⟩
abbrev main_v42 : Ref sig .tc := ⟨.hbm, 69, rfl⟩
abbrev main_v43 : Ref sig .tc := ⟨.hbm, 70, rfl⟩
abbrev main_c_15 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_16 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call4_call0_c : Ref sig .tc := ⟨.hbm, 82, rfl⟩
abbrev main_call4_call0_v0 : Ref sig .tc := ⟨.hbm, 83, rfl⟩
abbrev main_v53 : Ref sig .tc := ⟨.hbm, 84, rfl⟩
abbrev main_c_17 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_18 : Ref sig .tc := ⟨.hbm, 89, rfl⟩
abbrev main_v57 : Ref sig .tc := ⟨.hbm, 90, rfl⟩
abbrev main_c_19 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_20 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_21 : Ref sig .tc := ⟨.hbm, 99, rfl⟩
abbrev main_call5_v0 : Ref sig .tc := ⟨.hbm, 100, rfl⟩
abbrev main_call5_v1 : Ref sig .tc := ⟨.hbm, 101, rfl⟩
abbrev main_v64 : Ref sig .tc := ⟨.hbm, 102, rfl⟩
abbrev main_cst_22 : Ref sig .tc := ⟨.hbm, 103, rfl⟩
abbrev main_v65 : Ref sig .tc := ⟨.hbm, 104, rfl⟩
abbrev main_c_23 : Ref sig .tc := ⟨.hbm, 105, rfl⟩
abbrev main_v66 : Ref sig .tc := ⟨.hbm, 106, rfl⟩
abbrev main_v67 : Ref sig .tc := ⟨.hbm, 107, rfl⟩
abbrev main_c_24 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_25 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_call6_call0_c : Ref sig .tc := ⟨.hbm, 119, rfl⟩
abbrev main_call6_call0_v0 : Ref sig .tc := ⟨.hbm, 120, rfl⟩
abbrev main_v77 : Ref sig .tc := ⟨.hbm, 121, rfl⟩
abbrev main_c_26 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_c_27 : Ref sig .tc := ⟨.hbm, 126, rfl⟩
abbrev main_v81 : Ref sig .tc := ⟨.hbm, 127, rfl⟩
abbrev main_c_28 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_c_29 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_c_30 : Ref sig .tc := ⟨.hbm, 136, rfl⟩
abbrev main_call7_v0 : Ref sig .tc := ⟨.hbm, 137, rfl⟩
abbrev main_call7_v1 : Ref sig .tc := ⟨.hbm, 138, rfl⟩
abbrev main_v88 : Ref sig .tc := ⟨.hbm, 139, rfl⟩
abbrev main_cst_31 : Ref sig .tc := ⟨.hbm, 140, rfl⟩
abbrev main_v89 : Ref sig .tc := ⟨.hbm, 141, rfl⟩
abbrev main_c_32 : Ref sig .tc := ⟨.hbm, 142, rfl⟩
abbrev main_v90 : Ref sig .tc := ⟨.hbm, 143, rfl⟩
abbrev main_v91 : Ref sig .tc := ⟨.hbm, 144, rfl⟩
abbrev main_c_33 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S512x512x128_S262144x128 : S512x512x128.ShapeCasts S262144x128
  shapeCasts_S512x512_S262144 : S512x512.ShapeCasts S262144
  bcast_S_S262144 : S_.BroadcastsInDim S262144 (![] : Fin 0 → Fin S262144.rank)
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  reducesTo_S262144_S_d0 : S262144.ReducesTo [0] S_
  bcast_S_S513x128 : S_.BroadcastsInDim S513x128 (![] : Fin 0 → Fin S513x128.rank)
  bcast_S262144_S262144x1_0 : S262144.BroadcastsInDim S262144x1 (![0] : Fin 1 → Fin S262144x1.rank)
  slices_S513x128_S512x128_0_0 : S513x128.Slices ![0, 0] S512x128
  bcast_S512x128_S1x512x128_1_2 : S512x128.BroadcastsInDim S1x512x128 (![1, 2] : Fin 2 → Fin S1x512x128.rank)
  concatenates_S1x512x128_S1x512x128_S1x512x128_S1x512x128_S4x512x128_d0 : Shape.Concatenates [S1x512x128, S1x512x128, S1x512x128, S1x512x128] S4x512x128 0
  inb_S1x512x128_S1x512x128_0_0_0 : ∀ a, (![0, 0, 0] : Fin 3 → Nat) a + S1x512x128.size a ≤ S1x512x128.size a
  h_S1x512x128 : 0 < S1x512x128.numel
  shapeCasts_S1x512x128_S1x512x128 : S1x512x128.ShapeCasts S1x512x128
  shapeCasts_S1x512x128_S1x1x512x128 : S1x512x128.ShapeCasts S1x1x512x128
  shapeCasts_S1x1x512x128_S1x1x512x128 : S1x1x512x128.ShapeCasts S1x1x512x128
  broadcasts_S1x1x512x128_S1x32x512x128 : S1x1x512x128.Broadcasts S1x32x512x128
  inb_S1x32x512x128_S1x32x512x128_0_0_0_0 : ∀ a, (![0, 0, 0, 0] : Fin 4 → Nat) a + S1x32x512x128.size a ≤ S1x32x512x128.size a
  h_S1x32x512x128 : 0 < S1x32x512x128.numel
  scatter_S513x128_S262144x1_S262144x128_1_0_0_1_wf : ScatterDims.WF S513x128 S262144x1 S262144x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x512x128.size a
  hwx0_0 : ∀ i : grid0.Coords, EltTy.bits .f32 = 32 ∨ (Rect.block (s := S4x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512x128.size a ≤ S4x512x512x128.size a
  hwx0_1 : ∀ i : grid0.Coords, EltTy.bits .f32 = 32 ∨ (Rect.block (s := S4x512x512x128) S1x32x512x128.size (cc0_transform_1 i) (hinb0_1 i)).WholeWords (EltTy.packing .f32)

variable [Facts₀]

def scatter_S513x128_S262144x1_S262144x128_1_0_0_1 : ScatterDims S513x128 S262144x1 S262144x128 where
  updateWindowDims := [1]
  insertedWindowDims := [0]
  scatterDimsToOperandDims := [0]
  indexVectorDim := 1
  wf := scatter_S513x128_S262144x1_S262144x128_1_0_0_1_wf

abbrev win0_0 : Pipeline.Window sig grid0 :=
  Pipeline.Window.ofSpec (Memref.whole main_v102) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v103) S1x32x512x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x512x128 : Shape := ⟨3, ![512, 512, 128]⟩
abbrev S512x512 : Shape := ⟨2, ![512, 512]⟩
abbrev S262144x128 : Shape := ⟨2, ![262144, 128]⟩
abbrev S262144 : Shape := ⟨1, ![262144]⟩
abbrev S_ : Shape := ⟨0, ![]⟩
abbrev S513x128 : Shape := ⟨2, ![513, 128]⟩
abbrev S262144x1 : Shape := ⟨2, ![262144, 1]⟩
abbrev S512x128 : Shape := ⟨2, ![512, 128]⟩
abbrev S1x512x128 : Shape := ⟨3, ![1, 512, 128]⟩
abbrev S1x512x512x128 : Shape := ⟨4, ![1, 512, 512, 128]⟩
abbrev S4x512x512x128 : Shape := ⟨4, ![4, 512, 512, 128]⟩

abbrev nBuf : Space → Nat
  | .hbm => 165
  | .vmem => 0
  | .smem => 0
  | _ => 0

abbrev hbmTy0_0 (i : Nat) : BufTy := match i % 128 with
  | 0 => ⟨S512x512x128, .f32⟩
  | 1 => ⟨S512x512, .i32⟩
  | 2 => ⟨S262144x128, .f32⟩
  | 3 => ⟨S262144, .i32⟩
  | 4 => ⟨S_, .i32⟩
  | 5 => ⟨S262144, .i32⟩
  | 6 => ⟨S262144, .i1⟩
  | 7 => ⟨S262144, .i32⟩
  | 8 => ⟨S_, .i32⟩
  | 9 => ⟨S_, .i32⟩
  | 10 => ⟨S262144, .i32⟩
  | 11 => ⟨S_, .i32⟩
  | 12 => ⟨S262144, .i32⟩
  | 13 => ⟨S262144, .i32⟩
  | 14 => ⟨S262144, .i32⟩
  | 15 => ⟨S_, .i32⟩
  | 16 => ⟨S_, .i32⟩
  | 17 => ⟨S_, .i32⟩
  | 18 => ⟨S_, .i32⟩
  | 19 => ⟨S262144, .i32⟩
  | 20 => ⟨S262144, .i32⟩
  | 21 => ⟨S_, .i32⟩
  | 22 => ⟨S262144, .i32⟩
  | 23 => ⟨S262144, .i1⟩
  | 24 => ⟨S262144, .i1⟩
  | 25 => ⟨S_, .i32⟩
  | 26 => ⟨S_, .i32⟩
  | 27 => ⟨S262144, .i32⟩
  | 28 => ⟨S262144, .i32⟩
  | 29 => ⟨S_, .f32⟩
  | 30 => ⟨S513x128, .f32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S513x128, .f32⟩
  | 40 => ⟨S512x128, .f32⟩
  | 41 => ⟨S1x512x128, .f32⟩
  | 42 => ⟨S512x512x128, .f32⟩
  | 43 => ⟨S_, .i32⟩
  | 44 => ⟨S262144, .i32⟩
  | 45 => ⟨S262144, .i1⟩
  | 46 => ⟨S262144, .i32⟩
  | 47 => ⟨S_, .i32⟩
  | 48 => ⟨S_, .i32⟩
  | 49 => ⟨S262144, .i32⟩
  | 50 => ⟨S_, .i32⟩
  | 51 => ⟨S262144, .i32⟩
  | 52 => ⟨S262144, .i32⟩
  | 53 => ⟨S262144, .i32⟩
  | 54 => ⟨S_, .i32⟩
  | 55 => ⟨S_, .i32⟩
  | 56 => ⟨S_, .i32⟩
  | 57 => ⟨S_, .i32⟩
  | 58 => ⟨S262144, .i32⟩
  | 59 => ⟨S262144, .i32⟩
  | 60 => ⟨S_, .i32⟩
  | 61 => ⟨S262144, .i32⟩
  | 62 => ⟨S262144, .i1⟩
  | 63 => ⟨S262144, .i1⟩
  | 64 => ⟨S_, .i32⟩
  | 65 => ⟨S_, .i32⟩
  | 66 => ⟨S262144, .i32⟩
  | 67 => ⟨S262144, .i32⟩
  | 68 => ⟨S_, .f32⟩
  | 69 => ⟨S513x128, .f32⟩
  | 70 => ⟨S_, .i32⟩
  | 71 => ⟨S262144, .i32⟩
  | 72 => ⟨S262144, .i1⟩
  | 73 => ⟨S_, .i32⟩
  | 74 => ⟨S262144, .i32⟩
  | 75 => ⟨S262144, .i32⟩
  | 76 => ⟨S262144, .i32⟩
  | 77 => ⟨S262144x1, .i32⟩
  | 78 => ⟨S513x128, .f32⟩
  | 79 => ⟨S512x128, .f32⟩
  | 80 => ⟨S1x512x128, .f32⟩
  | 81 => ⟨S512x512x128, .f32⟩
  | 82 => ⟨S_, .i32⟩
  | 83 => ⟨S262144, .i32⟩
  | 84 => ⟨S262144, .i1⟩
  | 85 => ⟨S262144, .i32⟩
  | 86 => ⟨S_, .i32⟩
  | 87 => ⟨S_, .i32⟩
  | 88 => ⟨S262144, .i32⟩
  | 89 => ⟨S_, .i32⟩
  | 90 => ⟨S262144, .i32⟩
  | 91 => ⟨S262144, .i32⟩
  | 92 => ⟨S262144, .i32⟩
  | 93 => ⟨S_, .i32⟩
  | 94 => ⟨S_, .i32⟩
  | 95 => ⟨S_, .i32⟩
  | 96 => ⟨S_, .i32⟩
  | 97 => ⟨S262144, .i32⟩
  | 98 => ⟨S262144, .i32⟩
  | 99 => ⟨S_, .i32⟩
  | 100 => ⟨S262144, .i32⟩
  | 101 => ⟨S262144, .i1⟩
  | 102 => ⟨S262144, .i1⟩
  | 103 => ⟨S_, .i32⟩
  | 104 => ⟨S_, .i32⟩
  | 105 => ⟨S262144, .i32⟩
  | 106 => ⟨S262144, .i32⟩
  | 107 => ⟨S_, .f32⟩
  | 108 => ⟨S513x128, .f32⟩
  | 109 => ⟨S_, .i32⟩
  | 110 => ⟨S262144, .i32⟩
  | 111 => ⟨S262144, .i1⟩
  | 112 => ⟨S_, .i32⟩
  | 113 => ⟨S262144, .i32⟩
  | 114 => ⟨S262144, .i32⟩
  | 115 => ⟨S262144, .i32⟩
  | 116 => ⟨S262144x1, .i32⟩
  | 117 => ⟨S513x128, .f32⟩
  | 118 => ⟨S512x128, .f32⟩
  | 119 => ⟨S1x512x128, .f32⟩
  | 120 => ⟨S512x512x128, .f32⟩
  | 121 => ⟨S_, .i32⟩
  | 122 => ⟨S262144, .i32⟩
  | 123 => ⟨S262144, .i1⟩
  | 124 => ⟨S262144, .i32⟩
  | 125 => ⟨S_, .i32⟩
  | 126 => ⟨S_, .i32⟩
  | 127 => ⟨S262144, .i32⟩
  | _ => ⟨S512x512x128, .f32⟩

abbrev hbmTy0_1 (i : Nat) : BufTy := match i % 128 with
  | 0 => ⟨S_, .i32⟩
  | 1 => ⟨S262144, .i32⟩
  | 2 => ⟨S262144, .i32⟩
  | 3 => ⟨S262144, .i32⟩
  | 4 => ⟨S_, .i32⟩
  | 5 => ⟨S_, .i32⟩
  | 6 => ⟨S_, .i32⟩
  | 7 => ⟨S_, .i32⟩
  | 8 => ⟨S262144, .i32⟩
  | 9 => ⟨S262144, .i32⟩
  | 10 => ⟨S_, .i32⟩
  | 11 => ⟨S262144, .i32⟩
  | 12 => ⟨S262144, .i1⟩
  | 13 => ⟨S262144, .i1⟩
  | 14 => ⟨S_, .i32⟩
  | 15 => ⟨S_, .i32⟩
  | 16 => ⟨S262144, .i32⟩
  | 17 => ⟨S262144, .i32⟩
  | 18 => ⟨S_, .f32⟩
  | 19 => ⟨S513x128, .f32⟩
  | 20 => ⟨S_, .i32⟩
  | 21 => ⟨S262144, .i32⟩
  | 22 => ⟨S262144, .i1⟩
  | 23 => ⟨S_, .i32⟩
  | 24 => ⟨S262144, .i32⟩
  | 25 => ⟨S262144, .i32⟩
  | 26 => ⟨S262144, .i32⟩
  | 27 => ⟨S262144x1, .i32⟩
  | 28 => ⟨S513x128, .f32⟩
  | 29 => ⟨S512x128, .f32⟩
  | 30 => ⟨S1x512x128, .f32⟩
  | 31 => ⟨S512x512x128, .f32⟩
  | 32 => ⟨S1x512x512x128, .f32⟩
  | 33 => ⟨S1x512x512x128, .f32⟩
  | 34 => ⟨S1x512x512x128, .f32⟩
  | 35 => ⟨S1x512x512x128, .f32⟩
  | 36 => ⟨S4x512x512x128, .f32⟩
  | _ => ⟨S512x512x128, .f32⟩

abbrev hbmTy (i : Nat) : BufTy := match i / 128 with
  | 0 => hbmTy0_0 i
  | 1 => hbmTy0_1 i
  | _ => ⟨S512x512x128, .f32⟩

abbrev bufTy : (tb : Table) → Fin (tcTables nBuf tb) → BufTy
  | .hbm, ⟨i, _⟩ => hbmTy i
  | _, _ => ⟨S512x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_call0_c : Ref sig .tc := ⟨.hbm, 8, rfl⟩
abbrev main_call0_call0_v0 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_call1_v0 : Ref sig .tc := ⟨.hbm, 26, rfl⟩
abbrev main_call1_v1 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call2_call0_c : Ref sig .tc := ⟨.hbm, 47, rfl⟩
abbrev main_call2_call0_v0 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_12 : Ref sig .tc := ⟨.hbm, 64, rfl⟩
abbrev main_call3_v0 : Ref sig .tc := ⟨.hbm, 65, rfl⟩
abbrev main_call3_v1 : Ref sig .tc := ⟨.hbm, 66, rfl⟩
abbrev main_v42 : Ref sig .tc := ⟨.hbm, 67, rfl⟩
abbrev main_cst_13 : Ref sig .tc := ⟨.hbm, 68, rfl⟩
abbrev main_v43 : Ref sig .tc := ⟨.hbm, 69, rfl⟩
abbrev main_c_14 : Ref sig .tc := ⟨.hbm, 70, rfl⟩
abbrev main_v44 : Ref sig .tc := ⟨.hbm, 71, rfl⟩
abbrev main_v45 : Ref sig .tc := ⟨.hbm, 72, rfl⟩
abbrev main_c_15 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_16 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call4_call0_c : Ref sig .tc := ⟨.hbm, 86, rfl⟩
abbrev main_call4_call0_v0 : Ref sig .tc := ⟨.hbm, 87, rfl⟩
abbrev main_v57 : Ref sig .tc := ⟨.hbm, 88, rfl⟩
abbrev main_c_17 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_18 : Ref sig .tc := ⟨.hbm, 93, rfl⟩
abbrev main_v61 : Ref sig .tc := ⟨.hbm, 94, rfl⟩
abbrev main_c_19 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_20 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_21 : Ref sig .tc := ⟨.hbm, 103, rfl⟩
abbrev main_call5_v0 : Ref sig .tc := ⟨.hbm, 104, rfl⟩
abbrev main_call5_v1 : Ref sig .tc := ⟨.hbm, 105, rfl⟩
abbrev main_v68 : Ref sig .tc := ⟨.hbm, 106, rfl⟩
abbrev main_cst_22 : Ref sig .tc := ⟨.hbm, 107, rfl⟩
abbrev main_v69 : Ref sig .tc := ⟨.hbm, 108, rfl⟩
abbrev main_c_23 : Ref sig .tc := ⟨.hbm, 109, rfl⟩
abbrev main_v70 : Ref sig .tc := ⟨.hbm, 110, rfl⟩
abbrev main_v71 : Ref sig .tc := ⟨.hbm, 111, rfl⟩
abbrev main_c_24 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_25 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_call6_call0_c : Ref sig .tc := ⟨.hbm, 125, rfl⟩
abbrev main_call6_call0_v0 : Ref sig .tc := ⟨.hbm, 126, rfl⟩
abbrev main_v83 : Ref sig .tc := ⟨.hbm, 127, rfl⟩
abbrev main_c_26 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_27 : Ref sig .tc := ⟨.hbm, 132, rfl⟩
abbrev main_v87 : Ref sig .tc := ⟨.hbm, 133, rfl⟩
abbrev main_c_28 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_c_29 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_c_30 : Ref sig .tc := ⟨.hbm, 142, rfl⟩
abbrev main_call7_v0 : Ref sig .tc := ⟨.hbm, 143, rfl⟩
abbrev main_call7_v1 : Ref sig .tc := ⟨.hbm, 144, rfl⟩
abbrev main_v94 : Ref sig .tc := ⟨.hbm, 145, rfl⟩
abbrev main_cst_31 : Ref sig .tc := ⟨.hbm, 146, rfl⟩
abbrev main_v95 : Ref sig .tc := ⟨.hbm, 147, rfl⟩
abbrev main_c_32 : Ref sig .tc := ⟨.hbm, 148, rfl⟩
abbrev main_v96 : Ref sig .tc := ⟨.hbm, 149, rfl⟩
abbrev main_v97 : Ref sig .tc := ⟨.hbm, 150, rfl⟩
abbrev main_c_33 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩

abbrev nD : Nat := 1
abbrev τ : Topo := Topo.v7x

variable {F : FTy → Type} [FloatOps F]

class Facts₀ : Prop where
  shapeCasts_S512x512x128_S262144x128 : S512x512x128.ShapeCasts S262144x128
  shapeCasts_S512x512_S262144 : S512x512.ShapeCasts S262144
  bcast_S_S262144 : S_.BroadcastsInDim S262144 (![] : Fin 0 → Fin S262144.rank)
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  reducesTo_S262144_S_d0 : S262144.ReducesTo [0] S_
  bcast_S_S513x128 : S_.BroadcastsInDim S513x128 (![] : Fin 0 → Fin S513x128.rank)
  bcast_S262144_S262144x1_0 : S262144.BroadcastsInDim S262144x1 (![0] : Fin 1 → Fin S262144x1.rank)
  slices_S513x128_S512x128_0_0 : S513x128.Slices ![0, 0] S512x128
  bcast_S512x128_S1x512x128_1_2 : S512x128.BroadcastsInDim S1x512x128 (![1, 2] : Fin 2 → Fin S1x512x128.rank)
  bcast_S1x512x128_S512x512x128_0_1_2 : S1x512x128.BroadcastsInDim S512x512x128 (![0, 1, 2] : Fin 3 → Fin S512x512x128.rank)
  bcast_S512x512x128_S1x512x512x128_1_2_3 : S512x512x128.BroadcastsInDim S1x512x512x128 (![1, 2, 3] : Fin 3 → Fin S1x512x512x128.rank)
  concatenates_S1x512x512x128_S1x512x512x128_S1x512x512x128_S1x512x512x128_S4x512x512x128_d0 : Shape.Concatenates [S1x512x512x128, S1x512x512x128, S1x512x512x128, S1x512x512x128] S4x512x512x128 0
  scatter_S513x128_S262144x1_S262144x128_1_0_0_1_wf : ScatterDims.WF S513x128 S262144x1 S262144x128 [1] [0] [0] 1

variable [Facts₀]

def scatter_S513x128_S262144x1_S262144x128_1_0_0_1 : ScatterDims S513x128 S262144x1 S262144x128 where
  updateWindowDims := [1]
  insertedWindowDims := [0]
  scatterDimsToOperandDims := [0]
  indexVectorDim := 1
  wf := scatter_S513x128_S262144x1_S262144x128_1_0_0_1_wf

class Facts : Prop extends Facts₀ where

variable [Facts]
-- ==== Proof.KernelFrame.lean ====
/-
  The frame of `Kernel`'s @main: it runs to the end, faults nowhere and leaves its two argument arrays as launched.

  @main is seventeen stretches of host operations — for each of the four behaviour types the mask `bt = k`, its running
  count, the right-aligned slot of every valid row, the scatter of the embedding rows into a zeroed [513, 128] buffer and
  the slice of its first 512 rows; then the four [512, 128] sequences stacked into one [4, 512, 128] array — followed by
  ONE pallas_call on a 4 × 16 grid. The contents every buffer holds when the region is entered are the fold `V` of those
  operations over the launch memory; no operation writes an argument, so `V` at an argument is the launch contents.

  The kernel body at a grid point loads its input block [1, 512, 128] whole, re-lays it as [1, 1, 512, 128], repeats it 32
  times along the second axis and stores the result over its whole output block [1, 32, 512, 128] (it also loads that
  output block first and drops the value). So after the body the input's staging buffer is unchanged and the output's holds
  the broadcast of the input block: that is the proof data (`dats`), and the body's triple (`sound_kernel`) is run by the
  symbolic executor. The launch theorem for one region after a host prefix then gives the run (`run_main`), whose post has
  every array of the pipeline at what the proof data's write-backs leave and every other unscoped buffer at `V`.
-/
import proofs.«100555_j42863773614188_1_alg».proof.Proof.Gen.Kernel.Launch
import proofs.«100555_j42863773614188_1_alg».proof.Proof.Gen.Kernel.Skeleton
import proofs.«100555_j42863773614188_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The seventeen stretches of host operations before the region, in order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s TensorCore buffers when the region is entered: the launch memory after every host operation. -/
abbrev V (c : Dev nD) (b : Ref sig .tc) : Buf (Elt F) ((c : Thread nD τ).loc b) :=
  StableHlo.after (List.flatten (stretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is the stretches, then the region: holding the unscoped buffers at the launch contents it reduces to the
    region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

set_option maxHeartbeats 4000000 in
/-- No host operation writes the embeddings: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxHeartbeats 4000000 in
/-- No host operation writes the behaviour types: the region finds them as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, whether the point fetches it or not
    (the second grid axis does not move the block, so fifteen points in sixteen find it where the first left it). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Neither argument is an array of the pipeline, so the run's post has both at `V`, which is the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body's accesses -/

/-- The whole input block. -/
abbrev rIn : Rect S1x512x128 := Rect.unit (s := S1x512x128) ![0, 0, 0] S1x512x128.size inb_S1x512x128_S1x512x128_0_0_0
/-- The whole output block. -/
abbrev rOut : Rect S1x32x512x128 := Rect.unit (s := S1x32x512x128) ![0, 0, 0, 0] S1x32x512x128.size inb_S1x32x512x128_S1x32x512x128_0_0_0_0

/-- What the output's staging buffer holds after the body: its one store, of the broadcast of the loaded input block. -/
def outBlk (x0 : Vec F S1x512x128 .f32) : Vec F S1x32x512x128 .f32 :=
  View.canon [⟨rOut, k0_pay1 (View.ld x0 rIn)⟩]

/-- The store is over the whole block, so it covers it. -/
theorem coverOut (p0 : Vec F S1x32x512x128 .f32) (y : S1x32x512x128.Idx) :
    ∃ pc ∈ ([⟨rOut, p0⟩] : List (View.Piece (Elt F) S1x32x512x128 .f32)), y ∈ pc.1.set :=
  View.cover_of_tiled [⟨rOut, p0⟩] S1x32x512x128.size (by rfl) y

/-! ## The body's triple -/

set_option maxHeartbeats 1000000 in
/-- The kernel body on whole staging memrefs, the input's at contents `x0` and the output's at anything, runs to the
    continuation with the input's as it was and the output's at `outBlk x0`. -/
theorem sound_kernel (c : Dev nD) (E : Set ℕ) (i : grid0.Coords) (arg2 : Memref sig .tc .vmem S1x512x128 .f32) (harg2 : arg2.IsWhole)
    (arg3 : Memref sig .tc .vmem S1x32x512x128 .f32) (harg3 : arg3.IsWhole)
    (x0 : Vec F S1x512x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outBlk x0)) -∗ K ⟨⟩))
      ⊢ wp frame (wpE (defs₀ (F := F)) Variants.none c none) E (cc0__broadcast_kernel i arg2 harg2 arg3 harg3) K := by
  simp only [cc0__broadcast_kernel_eq_skeleton]; unfold cc0__broadcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverOut _)

/-! ## The pipeline's proof data -/

/-- On core `c`: the arrays as the region finds them; after the body at point `t` the input's buffer at its block and
    the output's at the broadcast of that block; the scoped rest and the generator register untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlk (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outBlk (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ _ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    write-backs leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Frm

end
-- ==== Proof.KernelIdealFrame.lean ====
/-
  The frame of `KernelIdeal`'s @main: it runs to the end, faults nowhere and leaves its two argument arrays as launched.

  @main is seventeen stretches of host operations — for each of the four behaviour types the mask `bt = k`, its running
  count, the right-aligned slot of every valid row, the scatter of the embedding rows into a zeroed [513, 128] buffer and
  the slice of its first 512 rows; then the four [512, 128] sequences stacked into one [4, 512, 128] array — followed by
  ONE pallas_call on a 4 × 16 grid. The contents every buffer holds when the region is entered are the fold `V` of those
  operations over the launch memory; no operation writes an argument, so `V` at an argument is the launch contents.

  The kernel body at a grid point loads its input block [1, 512, 128] whole, re-lays it as [1, 1, 512, 128], repeats it 32
  times along the second axis and stores the result over its whole output block [1, 32, 512, 128] (it also loads that
  output block first and drops the value). So after the body the input's staging buffer is unchanged and the output's holds
  the broadcast of the input block: that is the proof data (`dats`), and the body's triple (`sound_kernel`) is run by the
  symbolic executor. The launch theorem for one region after a host prefix then gives the run (`run_main`), whose post has
  every array of the pipeline at what the proof data's write-backs leave and every other unscoped buffer at `V`.
-/
import proofs.«100555_j42863773614188_1_alg».proof.Proof.Gen.KernelIdeal.Launch
import proofs.«100555_j42863773614188_1_alg».proof.Proof.Gen.KernelIdeal.Skeleton
import proofs.«100555_j42863773614188_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The seventeen stretches of host operations before the region, in order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s TensorCore buffers when the region is entered: the launch memory after every host operation. -/
abbrev V (c : Dev nD) (b : Ref sig .tc) : Buf (Elt F) ((c : Thread nD τ).loc b) :=
  StableHlo.after (List.flatten (stretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is the stretches, then the region: holding the unscoped buffers at the launch contents it reduces to the
    region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

set_option maxHeartbeats 4000000 in
/-- No host operation writes the embeddings: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxHeartbeats 4000000 in
/-- No host operation writes the behaviour types: the region finds them as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, whether the point fetches it or not
    (the second grid axis does not move the block, so fifteen points in sixteen find it where the first left it). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Neither argument is an array of the pipeline, so the run's post has both at `V`, which is the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body's accesses -/

/-- The whole input block. -/
abbrev rIn : Rect S1x512x128 := Rect.unit (s := S1x512x128) ![0, 0, 0] S1x512x128.size inb_S1x512x128_S1x512x128_0_0_0
/-- The whole output block. -/
abbrev rOut : Rect S1x32x512x128 := Rect.unit (s := S1x32x512x128) ![0, 0, 0, 0] S1x32x512x128.size inb_S1x32x512x128_S1x32x512x128_0_0_0_0

/-- What the output's staging buffer holds after the body: its one store, of the broadcast of the loaded input block. -/
def outBlk (x0 : Vec F S1x512x128 .f32) : Vec F S1x32x512x128 .f32 :=
  View.canon [⟨rOut, k0_pay1 (View.ld x0 rIn)⟩]

/-- The store is over the whole block, so it covers it. -/
theorem coverOut (p0 : Vec F S1x32x512x128 .f32) (y : S1x32x512x128.Idx) :
    ∃ pc ∈ ([⟨rOut, p0⟩] : List (View.Piece (Elt F) S1x32x512x128 .f32)), y ∈ pc.1.set :=
  View.cover_of_tiled [⟨rOut, p0⟩] S1x32x512x128.size (by rfl) y

/-! ## The body's triple -/

set_option maxHeartbeats 1000000 in
/-- The kernel body on whole staging memrefs, the input's at contents `x0` and the output's at anything, runs to the
    continuation with the input's as it was and the output's at `outBlk x0`. -/
theorem sound_kernel (c : Dev nD) (E : Set ℕ) (i : grid0.Coords) (arg2 : Memref sig .tc .vmem S1x512x128 .f32) (harg2 : arg2.IsWhole)
    (arg3 : Memref sig .tc .vmem S1x32x512x128 .f32) (harg3 : arg3.IsWhole)
    (x0 : Vec F S1x512x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outBlk x0)) -∗ K ⟨⟩))
      ⊢ wp frame (wpE (defs₀ (F := F)) Variants.none c none) E (cc0__broadcast_kernel i arg2 harg2 arg3 harg3) K := by
  simp only [cc0__broadcast_kernel_eq_skeleton]; unfold cc0__broadcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverOut _)

/-! ## The pipeline's proof data -/

/-- On core `c`: the arrays as the region finds them; after the body at point `t` the input's buffer at its block and
    the output's at the broadcast of that block; the scoped rest and the generator register untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlk (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outBlk (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ _ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    write-backs leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frm

end
-- ==== Proof.Layout.lean ====
/-
  The arrangement both programs end with, read index by index; no program is imported here.

  Four sequences `s 0 … s 3`, each a [512, 128] array, are laid out in two ways.
  * STACKED: each given a leading unit axis and the four concatenated along it, a [4, 512, 128] array whose entry
    (t, p, q) is `s t` at (p, q). A kernel then copies row-block t of it to every batch row b:
    `spread X` at (t, b, p, q) is `X` at (t, p, q).
  * EXPANDED: each given a leading unit axis, repeated along a new batch axis of 512, given one more leading unit axis, and
    the four concatenated along that: a [4, 512, 512, 128] array whose entry (t, b, p, q) is `s t` at (p, q).
  The two agree: `spread (stacked s) = expanded s`. Every step is a re-indexing, so the law holds for elements of any type.

  Also here: the kernel body's re-laying of one [1, 512, 128] block as [1, 32, 512, 128] (three shape casts and a
  repetition along the second axis), whose entry (z, r, p, q) is the block's entry (0, p, q).
-/
import Idealize.ShloMosaic.Lib.ValueIdx
import Idealize.ShloMosaic.Lib.ValueLayout
import Idealize.ShloMosaic.Lib.Pipeline.Value

noncomputable section

namespace Cert.Layout

open Idealize.ShloMosaic Idealize.ShloMosaic.ValueIdx

variable {α : Type}

abbrev Sseq : Shape := ⟨2, ![512, 128]⟩
abbrev S1seq : Shape := ⟨3, ![1, 512, 128]⟩
abbrev S4seq : Shape := ⟨3, ![4, 512, 128]⟩
abbrev Sbat : Shape := ⟨3, ![512, 512, 128]⟩
abbrev S1bat : Shape := ⟨4, ![1, 512, 512, 128]⟩
abbrev S4bat : Shape := ⟨4, ![4, 512, 512, 128]⟩
abbrev S11seq : Shape := ⟨4, ![1, 1, 512, 128]⟩
abbrev S1rep : Shape := ⟨4, ![1, 32, 512, 128]⟩

/-! ## One sequence under a leading unit axis, and repeated along the batch -/

/-- A sequence given a leading unit axis: entry (z, p, q) is the sequence's (p, q). -/
theorem lead_apply (h1 : Sseq.BroadcastsInDim S1seq ![1, 2]) (s : Sseq.Idx → α) (z : Fin 1) (p : Fin 512) (q : Fin 128) :
    broadcastInDim S1seq ![1, 2] h1 s (ix3 z p q) = s (ix2 p q) :=
  broadcastInDim_apply _ h1 s _ _ (fun a => by match a with | ⟨0, _⟩ => rfl | ⟨1, _⟩ => rfl)

/-- That array repeated along a batch axis of 512 and given one more leading unit axis: entry (z, b, p, q) is the
    sequence's (p, q). -/
theorem expand_apply (h1 : Sseq.BroadcastsInDim S1seq ![1, 2]) (h2 : S1seq.BroadcastsInDim Sbat ![0, 1, 2])
    (h3 : Sbat.BroadcastsInDim S1bat ![1, 2, 3]) (s : Sseq.Idx → α) (z : Fin 1) (b : Fin 512) (p : Fin 512) (q : Fin 128) :
    broadcastInDim S1bat ![1, 2, 3] h3 (broadcastInDim Sbat ![0, 1, 2] h2 (broadcastInDim S1seq ![1, 2] h1 s)) (ix4 z b p q)
      = s (ix2 p q) := by
  rw [broadcastInDim_apply _ h3 _ (ix4 z b p q) (ix3 b p q)
        (fun a => by match a with | ⟨0, _⟩ => rfl | ⟨1, _⟩ => rfl | ⟨2, _⟩ => rfl),
    broadcastInDim_apply _ h2 _ (ix3 b p q) (ix3 (0 : Fin 1) p q)
        (fun a => by match a with | ⟨0, _⟩ => rfl | ⟨1, _⟩ => rfl | ⟨2, _⟩ => rfl),
    lead_apply]

/-! ## The two arrangements of four sequences -/

/-- The four sequences stacked along a new leading axis. -/
def stacked (h1 : Sseq.BroadcastsInDim S1seq ![1, 2]) (hc : Shape.Concatenates [S1seq, S1seq, S1seq, S1seq] S4seq 0)
    (s : Fin 4 → Sseq.Idx → α) : S4seq.Idx → α :=
  concatenate S4seq 0 [⟨S1seq, broadcastInDim S1seq ![1, 2] h1 (s 0)⟩, ⟨S1seq, broadcastInDim S1seq ![1, 2] h1 (s 1)⟩,
    ⟨S1seq, broadcastInDim S1seq ![1, 2] h1 (s 2)⟩, ⟨S1seq, broadcastInDim S1seq ![1, 2] h1 (s 3)⟩] hc

/-- A concatenation of four [1, 512, 128] pieces along the leading axis, read at (t, p, q): piece t at (0, p, q). -/
theorem cat3_apply (hc : Shape.Concatenates [S1seq, S1seq, S1seq, S1seq] S4seq 0) (x : Fin 4 → S1seq.Idx → α)
    (t : Fin 4) (p : Fin 512) (q : Fin 128) :
    concatenate S4seq 0 [⟨S1seq, x 0⟩, ⟨S1seq, x 1⟩, ⟨S1seq, x 2⟩, ⟨S1seq, x 3⟩] hc (ix3 t p q) = x t (ix3 (0 : Fin 1) p q) := by
  have hoff : ∀ b : Fin S1seq.rank, b.cast (rfl : S1seq.rank = S4seq.rank) ≠ (0 : Fin S4seq.rank) →
      ((ix3 (0 : Fin 1) p q : S1seq.Idx) b).val = ((ix3 t p q : S4seq.Idx) (b.cast rfl)).val := fun b hb => by
    match b with
    | ⟨0, _⟩ => exact absurd rfl hb
    | ⟨1, _⟩ => rfl
    | ⟨2, _⟩ => rfl
  match t with
  | ⟨0, _⟩ =>
    exact concatenate_apply_piece (0 : Fin S4seq.rank) [⟨S1seq, x 0⟩, ⟨S1seq, x 1⟩, ⟨S1seq, x 2⟩, ⟨S1seq, x 3⟩] hc _ 0 (by show (0 : ℕ) < 4; omega)
      S1seq (x 0) rfl rfl 0 (by rfl) (ix3 (0 : Fin 1) p q) hoff (by rfl)
  | ⟨1, _⟩ =>
    exact concatenate_apply_piece (0 : Fin S4seq.rank) [⟨S1seq, x 0⟩, ⟨S1seq, x 1⟩, ⟨S1seq, x 2⟩, ⟨S1seq, x 3⟩] hc _ 1 (by show (1 : ℕ) < 4; omega)
      S1seq (x 1) rfl rfl 1 (by rfl) (ix3 (0 : Fin 1) p q) hoff (by rfl)
  | ⟨2, _⟩ =>
    exact concatenate_apply_piece (0 : Fin S4seq.rank) [⟨S1seq, x 0⟩, ⟨S1seq, x 1⟩, ⟨S1seq, x 2⟩, ⟨S1seq, x 3⟩] hc _ 2 (by show (2 : ℕ) < 4; omega)
      S1seq (x 2) rfl rfl 2 (by rfl) (ix3 (0 : Fin 1) p q) hoff (by rfl)
  | ⟨3, _⟩ =>
    exact concatenate_apply_piece (0 : Fin S4seq.rank) [⟨S1seq, x 0⟩, ⟨S1seq, x 1⟩, ⟨S1seq, x 2⟩, ⟨S1seq, x 3⟩] hc _ 3 (by show (3 : ℕ) < 4; omega)
      S1seq (x 3) rfl rfl 3 (by rfl) (ix3 (0 : Fin 1) p q) hoff (by rfl)

/-- Entry (t, p, q) of the stack is sequence t's (p, q): piece t of the concatenation, at its unit leading coordinate. -/
theorem stacked_apply (h1 : Sseq.BroadcastsInDim S1seq ![1, 2]) (hc : Shape.Concatenates [S1seq, S1seq, S1seq, S1seq] S4seq 0)
    (s : Fin 4 → Sseq.Idx → α) (t : Fin 4) (p : Fin 512) (q : Fin 128) :
    stacked h1 hc s (ix3 t p q) = s t (ix2 p q) := by
  unfold stacked
  exact (cat3_apply hc (fun n => broadcastInDim S1seq ![1, 2] h1 (s n)) t p q).trans (lead_apply h1 (s t) 0 p q)

/-- The four sequences, each repeated over the batch, concatenated along a new leading axis. -/
def expanded (h1 : Sseq.BroadcastsInDim S1seq ![1, 2]) (h2 : S1seq.BroadcastsInDim Sbat ![0, 1, 2])
    (h3 : Sbat.BroadcastsInDim S1bat ![1, 2, 3]) (hc : Shape.Concatenates [S1bat, S1bat, S1bat, S1bat] S4bat 0)
    (s : Fin 4 → Sseq.Idx → α) : S4bat.Idx → α :=
  concatenate S4bat 0
    [⟨S1bat, broadcastInDim S1bat ![1, 2, 3] h3 (broadcastInDim Sbat ![0, 1, 2] h2 (broadcastInDim S1seq ![1, 2] h1 (s 0)))⟩,
     ⟨S1bat, broadcastInDim S1bat ![1, 2, 3] h3 (broadcastInDim Sbat ![0, 1, 2] h2 (broadcastInDim S1seq ![1, 2] h1 (s 1)))⟩,
     ⟨S1bat, broadcastInDim S1bat ![1, 2, 3] h3 (broadcastInDim Sbat ![0, 1, 2] h2 (broadcastInDim S1seq ![1, 2] h1 (s 2)))⟩,
     ⟨S1bat, broadcastInDim S1bat ![1, 2, 3] h3 (broadcastInDim Sbat ![0, 1, 2] h2 (broadcastInDim S1seq ![1, 2] h1 (s 3)))⟩] hc

/-- A concatenation of four [1, 512, 512, 128] pieces along the leading axis, read at (t, b, p, q): piece t at (0, b, p, q). -/
theorem cat4_apply (hc : Shape.Concatenates [S1bat, S1bat, S1bat, S1bat] S4bat 0) (x : Fin 4 → S1bat.Idx → α)
    (t : Fin 4) (b : Fin 512) (p : Fin 512) (q : Fin 128) :
    concatenate S4bat 0 [⟨S1bat, x 0⟩, ⟨S1bat, x 1⟩, ⟨S1bat, x 2⟩, ⟨S1bat, x 3⟩] hc (ix4 t b p q) = x t (ix4 (0 : Fin 1) b p q) := by
  have hoff : ∀ a : Fin S1bat.rank, a.cast (rfl : S1bat.rank = S4bat.rank) ≠ (0 : Fin S4bat.rank) →
      ((ix4 (0 : Fin 1) b p q : S1bat.Idx) a).val = ((ix4 t b p q : S4bat.Idx) (a.cast rfl)).val := fun a ha => by
    match a with
    | ⟨0, _⟩ => exact absurd rfl ha
    | ⟨1, _⟩ => rfl
    | ⟨2, _⟩ => rfl
    | ⟨3, _⟩ => rfl
  match t with
  | ⟨0, _⟩ =>
    exact concatenate_apply_piece (0 : Fin S4bat.rank) [⟨S1bat, x 0⟩, ⟨S1bat, x 1⟩, ⟨S1bat, x 2⟩, ⟨S1bat, x 3⟩] hc _ 0 (by show (0 : ℕ) < 4; omega)
      S1bat (x 0) rfl rfl 0 (by rfl) (ix4 (0 : Fin 1) b p q) hoff (by rfl)
  | ⟨1, _⟩ =>
    exact concatenate_apply_piece (0 : Fin S4bat.rank) [⟨S1bat, x 0⟩, ⟨S1bat, x 1⟩, ⟨S1bat, x 2⟩, ⟨S1bat, x 3⟩] hc _ 1 (by show (1 : ℕ) < 4; omega)
      S1bat (x 1) rfl rfl 1 (by rfl) (ix4 (0 : Fin 1) b p q) hoff (by rfl)
  | ⟨2, _⟩ =>
    exact concatenate_apply_piece (0 : Fin S4bat.rank) [⟨S1bat, x 0⟩, ⟨S1bat, x 1⟩, ⟨S1bat, x 2⟩, ⟨S1bat, x 3⟩] hc _ 2 (by show (2 : ℕ) < 4; omega)
      S1bat (x 2) rfl rfl 2 (by rfl) (ix4 (0 : Fin 1) b p q) hoff (by rfl)
  | ⟨3, _⟩ =>
    exact concatenate_apply_piece (0 : Fin S4bat.rank) [⟨S1bat, x 0⟩, ⟨S1bat, x 1⟩, ⟨S1bat, x 2⟩, ⟨S1bat, x 3⟩] hc _ 3 (by show (3 : ℕ) < 4; omega)
      S1bat (x 3) rfl rfl 3 (by rfl) (ix4 (0 : Fin 1) b p q) hoff (by rfl)

/-- Entry (t, b, p, q) of the expanded array is sequence t's (p, q), whatever the batch row b. -/
theorem expanded_apply (h1 : Sseq.BroadcastsInDim S1seq ![1, 2]) (h2 : S1seq.BroadcastsInDim Sbat ![0, 1, 2])
    (h3 : Sbat.BroadcastsInDim S1bat ![1, 2, 3]) (hc : Shape.Concatenates [S1bat, S1bat, S1bat, S1bat] S4bat 0)
    (s : Fin 4 → Sseq.Idx → α) (t : Fin 4) (b : Fin 512) (p : Fin 512) (q : Fin 128) :
    expanded h1 h2 h3 hc s (ix4 t b p q) = s t (ix2 p q) := by
  unfold expanded
  exact (cat4_apply hc (fun n => broadcastInDim S1bat ![1, 2, 3] h3 (broadcastInDim Sbat ![0, 1, 2] h2 (broadcastInDim S1seq ![1, 2] h1 (s n)))) t b p q).trans
    (expand_apply h1 h2 h3 (s t) 0 b p q)

/-- Row-block t of a [4, 512, 128] array copied to every batch row: entry (t, b, p, q) is the array's (t, p, q). -/
def spread (X : S4seq.Idx → α) : S4bat.Idx → α :=
  fun i => X (ix3 (n0 := 4) (n1 := 512) (n2 := 128) (i 0) (i 2) (i 3))

theorem spread_apply (X : S4seq.Idx → α) (t : Fin 4) (b : Fin 512) (p : Fin 512) (q : Fin 128) :
    spread X (ix4 t b p q) = X (ix3 t p q) := rfl

/-- THE LAW: copying each row-block of the stack to every batch row gives the expanded array. -/
theorem spread_stacked (h1 : Sseq.BroadcastsInDim S1seq ![1, 2]) (h2 : S1seq.BroadcastsInDim Sbat ![0, 1, 2])
    (h3 : Sbat.BroadcastsInDim S1bat ![1, 2, 3]) (hc3 : Shape.Concatenates [S1seq, S1seq, S1seq, S1seq] S4seq 0)
    (hc4 : Shape.Concatenates [S1bat, S1bat, S1bat, S1bat] S4bat 0) (s : Fin 4 → Sseq.Idx → α) :
    spread (stacked h1 hc3 s) = expanded h1 h2 h3 hc4 s := by
  funext i
  obtain ⟨t, b, p, q, rfl⟩ : ∃ (t : Fin 4) (b : Fin 512) (p : Fin 512) (q : Fin 128), i = ix4 t b p q :=
    ⟨i 0, i 1, i 2, i 3, eq_ix4 i⟩
  rw [spread_apply, stacked_apply, expanded_apply]

/-! ## The kernel body's re-laying of one block -/

/-- A [1, 512, 128] block cast to itself, to [1, 1, 512, 128], to itself, then repeated 32 times along the second axis:
    entry (z, r, p, q) is the block's (0, p, q). -/
theorem relay_apply (hc1 : S1seq.ShapeCasts S1seq) (hc2 : S1seq.ShapeCasts S11seq) (hc3 : S11seq.ShapeCasts S11seq)
    (hb : S11seq.Broadcasts S1rep) (x : S1seq.Idx → α) (z : Fin 1) (r : Fin 32) (p : Fin 512) (q : Fin 128) :
    broadcastTo S1rep (shapeCast S11seq (shapeCast S11seq (shapeCast S1seq x hc1) hc2) hc3) hb (ix4 z r p q)
      = x (ix3 (0 : Fin 1) p q) := by
  rw [broadcastTo_apply _ hb (ix4 z r p q) (ix4 (0 : Fin 1) (0 : Fin 1) p q)
        (fun a => by match a with | ⟨0, _⟩ => rfl | ⟨1, _⟩ => rfl | ⟨2, _⟩ => rfl | ⟨3, _⟩ => rfl),
    shapeCast_self, shapeCast_self]
  exact shapeCast_apply x hc2 (ix4 (0 : Fin 1) (0 : Fin 1) p q) (ix3 (0 : Fin 1) p q) (by
    rw [Shape.rowMajor_val_three, Shape.rowMajor_val_four]; rfl)

end Cert.Layout

end
-- ==== Proof.Spec.lean ====
/-
  What one behaviour type's compacted, right-aligned sequence is, as ONE function of the two argument arrays.

  With N = 512 · 512 rows, x the embeddings re-laid as [N, 128] and bt the behaviour types re-laid as [N]:
    mask   = (bt = k)                                   which rows are of type k
    p      = cumsum(mask) − 1                           a valid row's rank among the valid rows
    nv     = sum(mask)                                  how many there are
    slot   = (512 − nv) + p                             its right-aligned slot; negative when it is dropped
    tgt    = slot where mask and slot ≥ 0, else 512     dropped and invalid rows go to the pad row 512
    buf    = zeros[513, 128] with row tgt(n) := x(n)    (indices below zero counted from the end, as the scatter reads them)
    seq    = buf[0:512]
  Both programs compute exactly this chain for k = 1, 2, 3, 4, word for word, so it is carried as one opaque function:
  nothing below ever opens it.
-/
import Idealize.ShloMosaic.PureOps
import Idealize.ShloMosaic.Lib.StableHlo
import proofs.«100555_j42863773614188_1_alg».proof.Proof.Layout

noncomputable section

namespace Cert.Spec

open Idealize.ShloMosaic Cert.Layout

variable {F : FTy → Type} [FloatOps F]

abbrev Semb : Shape := ⟨3, ![512, 512, 128]⟩
abbrev Sbt : Shape := ⟨2, ![512, 512]⟩
abbrev Sflat : Shape := ⟨2, ![262144, 128]⟩
abbrev Sn : Shape := ⟨1, ![262144]⟩
abbrev S0 : Shape := ⟨0, ![]⟩
abbrev Spad : Shape := ⟨2, ![513, 128]⟩
abbrev Sn1 : Shape := ⟨2, ![262144, 1]⟩

/-! ## The operations' side conditions, decided -/

theorem cast_emb : Semb.ShapeCasts Sflat := by decide
theorem cast_bt : Sbt.ShapeCasts Sn := by decide
theorem bc_0_n : S0.BroadcastsInDim Sn (![] : Fin 0 → Fin Sn.rank) := by decide
theorem lt_1_32 : 1 < 32 := by decide
theorem bc_0_0 : S0.BroadcastsInDim S0 (![] : Fin 0 → Fin S0.rank) := by decide
theorem win_n : Sn.ReduceWindows (![262144] : Fin 1 → Nat) ![1] ![262143] ![0] Sn := by decide
theorem pos_0 : 0 < S0.numel := by decide
theorem red_n : Sn.ReducesTo [0] S0 := by decide
theorem bc_0_pad : S0.BroadcastsInDim Spad (![] : Fin 0 → Fin Spad.rank) := by decide
theorem bc_n_n1 : Sn.BroadcastsInDim Sn1 (![0] : Fin 1 → Fin Sn1.rank) := by decide
theorem slice_pad : Spad.Slices ![0, 0] Sseq := by decide
theorem scatter_wf : ScatterDims.WF Spad Sn1 Sflat [1] [0] [0] 1 := by decide
theorem bc_lead : Sseq.BroadcastsInDim S1seq (![1, 2] : Fin 2 → Fin S1seq.rank) := by decide
theorem bc_batch : S1seq.BroadcastsInDim Sbat (![0, 1, 2] : Fin 3 → Fin Sbat.rank) := by decide
theorem bc_lead4 : Sbat.BroadcastsInDim S1bat (![1, 2, 3] : Fin 3 → Fin S1bat.rank) := by decide
theorem cat3 : Shape.Concatenates [S1seq, S1seq, S1seq, S1seq] S4seq 0 := by decide
theorem cat4 : Shape.Concatenates [S1bat, S1bat, S1bat, S1bat] S4bat 0 := by decide

/-- The scatter of whole rows: the one index column names the row of the padded buffer. -/
def scatterRows : ScatterDims Spad Sn1 Sflat where
  updateWindowDims := [1]
  insertedWindowDims := [0]
  scatterDimsToOperandDims := [0]
  indexVectorDim := 1
  wf := scatter_wf

/-! ## One type's sequence -/

/-- The compacted, right-aligned sequence of the rows whose behaviour type is the word `k`. -/
def seqOf (k : BitVec 32) (a0 : (⟨Semb, .f32⟩ : BufTy).Contents (Elt F)) (a1 : (⟨Sbt, .i32⟩ : BufTy).Contents (Elt F)) :
    (⟨Sseq, .f32⟩ : BufTy).Contents (Elt F) :=
  let x : (⟨Sflat, .f32⟩ : BufTy).Contents (Elt F) := shapeCast Sflat a0 cast_emb
  let bt : (⟨Sn, .i32⟩ : BufTy).Contents (Elt F) := shapeCast Sn a1 cast_bt
  let splat : (⟨S0, .i32⟩ : BufTy).Contents (Elt F) → (⟨Sn, .i32⟩ : BufTy).Contents (Elt F) := broadcastInDim Sn ![] bc_0_n
  let widen : (⟨Sn, .i1⟩ : BufTy).Contents (Elt F) → (⟨Sn, .i32⟩ : BufTy).Contents (Elt F) := (extui 32 · lt_1_32)
  let mask : (⟨Sn, .i1⟩ : BufTy).Contents (Elt F) := cmpi .eq bt (splat (constantI S0 32 k))
  let running : (⟨Sn, .i32⟩ : BufTy).Contents (Elt F) :=
    Host.reduceWindow IntOp.addi ![262144] ![1] ![262143] ![0] (widen mask) (broadcastInDim S0 ![] bc_0_0 (constantI S0 32 0#32)) win_n pos_0
  let p : (⟨Sn, .i32⟩ : BufTy).Contents (Elt F) := subi running (splat (constantI S0 32 1#32))
  let nv : (⟨S0, .i32⟩ : BufTy).Contents (Elt F) := Host.reduce IntOp.addi (widen mask) (constantI S0 32 0#32) red_n pos_0
  let slot : (⟨Sn, .i32⟩ : BufTy).Contents (Elt F) := addi (splat (subi (constantI S0 32 512#32) nv)) p
  let ok : (⟨Sn, .i1⟩ : BufTy).Contents (Elt F) := andi mask (cmpi .sge slot (splat (constantI S0 32 0#32)))
  let tgt : (⟨Sn, .i32⟩ : BufTy).Contents (Elt F) := select ok slot (splat (id (constantI S0 32 512#32)))
  let row : (⟨Sn, .i32⟩ : BufTy).Contents (Elt F) :=
    select (cmpi .slt tgt (splat (constantI S0 32 0#32))) (addi tgt (splat (constantI S0 32 513#32))) tgt
  let zeros : (⟨Spad, .f32⟩ : BufTy).Contents (Elt F) := broadcastInDim Spad ![] bc_0_pad (constant S0 .f32 0x00000000#32)
  let col : (⟨Sn1, .i32⟩ : BufTy).Contents (Elt F) := broadcastInDim Sn1 ![0] bc_n_n1 row
  let buf : (⟨Spad, .f32⟩ : BufTy).Contents (Elt F) := Host.scatter scatterRows (fun _ b => b) zeros col x
  extractStridedSlice Sseq ![0, 0] buf slice_pad

/-- The four behaviour types' words: 1, 2, 3, 4. -/
def typeWord : Fin 4 → BitVec 32 := ![1#32, 2#32, 3#32, 4#32]

/-- The four sequences of one pair of argument arrays. -/
def seqs (a0 : (⟨Semb, .f32⟩ : BufTy).Contents (Elt F)) (a1 : (⟨Sbt, .i32⟩ : BufTy).Contents (Elt F)) :
    Fin 4 → (⟨Sseq, .f32⟩ : BufTy).Contents (Elt F) :=
  fun t => seqOf (typeWord t) a0 a1

end Cert.Spec

end
-- ==== Proof.KernelIdealValue.lean ====
/-
  What the idealized kernel's result array holds after the run, as one function of the two argument arrays.

  The pallas_call's input is the stacked array X = V(main_v102) of shape [4, 512, 128]; its output has shape [4, 512, 512, 128].
  At grid point (t, g) the body reads input block t (all of X's row-block t) and writes it, repeated 32 times, to output block
  (t, g), which is rows 32 g … 32 g + 31 of the batch axis. So what point (t, g) writes back is exactly that block of
  `spread X`, the array whose entry (t, b, p, q) is X's (t, p, q); the 64 blocks tile the output, so the output array ends
  at `spread X`. The host operations before the region leave X at the stack of the four compacted sequences, hence the
  result is the expanded array of those sequences (Layout's law).
-/
import proofs.«100555_j42863773614188_1_alg».proof.Proof.KernelIdealFrame
import proofs.«100555_j42863773614188_1_alg».proof.Proof.Spec
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The body's payload at an index -/

/-- The stored value at (z, r, p, q) is the loaded block at (0, p, q): the repetition forgets r. -/
theorem pay_at (x0 : Vec F S1x512x128 .f32) (j : S1x32x512x128.Idx) (k : S1x512x128.Idx)
    (h0 : (k 0).val = 0) (h1 : (k 1).val = (j 2).val) (h2 : (k 2).val = (j 3).val) : k0_pay1 x0 j = x0 k := by
  obtain ⟨z, r, p, q, rfl⟩ : ∃ (z : Fin 1) (r : Fin 32) (p : Fin 512) (q : Fin 128), j = ix4 z r p q :=
    ⟨j 0, j 1, j 2, j 3, eq_ix4 j⟩
  refine (Cert.Layout.relay_apply shapeCasts_S1x512x128_S1x512x128 shapeCasts_S1x512x128_S1x1x512x128
    shapeCasts_S1x1x512x128_S1x1x512x128 broadcasts_S1x1x512x128_S1x32x512x128 x0 z r p q).trans ?_
  refine congrArg x0 (funext fun a => Fin.ext ?_)
  match a with
  | ⟨0, _⟩ => exact h0.symm
  | ⟨1, _⟩ => exact h1.symm
  | ⟨2, _⟩ => exact h2.symm

/-! ## The index maps over the grid -/

/-- Input block index = output block index on the leading axis; every other input coordinate and the output's last two
    are 0; the output's first two run over 4 × 16. -/
theorem idx_facts : ∀ t : Fin cfg0.N, win0_0.index t (0 : Fin 3) = win0_1.index t (0 : Fin 4)
    ∧ win0_0.index t (1 : Fin 3) = 0 ∧ win0_0.index t (2 : Fin 3) = 0
    ∧ win0_1.index t (2 : Fin 4) = 0 ∧ win0_1.index t (3 : Fin 4) = 0
    ∧ win0_1.index t (0 : Fin 4) < 4 ∧ win0_1.index t (1 : Fin 4) < 16 :=
  (by decide +kernel : ∀ t : Fin grid0.N, _)

/-- Every output block is some point's. -/
theorem idx_onto : ∀ (q0 : Fin 4) (q1 : Fin 16), ∃ t : Fin cfg0.N, win0_1.index t = ![q0.val, q1.val, 0, 0] :=
  (by decide +kernel : ∀ (q0 : Fin 4) (q1 : Fin 16), ∃ t : Fin grid0.N, win0_1.index t = ![q0.val, q1.val, 0, 0])

/-! ## What each point writes back, and the array after the run -/

/-- WHAT POINT `t` WRITES BACK is block `t` of the stacked input copied to every batch row. -/
theorem flushed1_eq (c : Dev nD) (t : Fin cfg0.N) :
    (dats m 0 c).flushed 1 t = ((cfg0.win 1).blk t).view.read (Elt F) (Cert.Layout.spread (V m c main_v102)) := by
  show (cfg0.win 1).cut (grid0.coords t) ((dats m 0 c).after 1 t) = _
  rw [after0_1]
  unfold outBlk
  rw [View.canon_unit_zero hz4]
  simp only [View.ld_unit_zero (S := S1x512x128) hz3]
  obtain ⟨e0, e1, e2, e3, e4, e5, e6⟩ := idx_facts t
  funext j
  have hj0 : (j 0).val < 1 := (j 0).isLt
  have hj2 : (j 2).val < 512 := (j 2).isLt
  have hj3 : (j 3).val < 128 := (j 3).isLt
  show k0_pay1 (iblk m c 0 t) j = Cert.Layout.spread (V m c main_v102) (((cfg0.win 1).blk t).view.emb j)
  refine (pay_at (iblk m c 0 t) j (ix3 (0 : Fin 1) ⟨(j 2).val, hj2⟩ ⟨(j 3).val, hj3⟩) rfl rfl rfl).trans ?_
  show V m c main_v102 (((cfg0.win 0).blk t).view.emb (ix3 (0 : Fin 1) ⟨(j 2).val, hj2⟩ ⟨(j 3).val, hj3⟩))
    = V m c main_v102 (ix3 (n0 := 4) (n1 := 512) (n2 := 128) ((((cfg0.win 1).blk t).view.emb j) 0) ((((cfg0.win 1).blk t).view.emb j) 2) ((((cfg0.win 1).blk t).view.emb j) 3))
  refine congrArg (V m c main_v102) (funext fun a => Fin.ext ?_)
  match a with
  | ⟨0, _⟩ => show win0_0.index t (0 : Fin 3) * 1 + 1 * 0 = win0_1.index t (0 : Fin 4) * 1 + 1 * (j 0).val; omega
  | ⟨1, _⟩ => show win0_0.index t (1 : Fin 3) * 512 + 1 * (j 2).val = win0_1.index t (2 : Fin 4) * 512 + 1 * (j 2).val; omega
  | ⟨2, _⟩ => show win0_0.index t (2 : Fin 3) * 128 + 1 * (j 3).val = win0_1.index t (3 : Fin 4) * 128 + 1 * (j 3).val; omega

/-- An index of the output array is in point `t`'s block iff each coordinate is in the block's range on its axis. -/
theorem mem_blk1 (t : Fin cfg0.N) (i : S4x512x512x128.Idx) :
    i ∈ ((cfg0.win 1).blk t).view.set ↔ ∀ a : Fin 4, win0_1.index t a * S1x32x512x128.size a ≤ (i a).val ∧ (i a).val < win0_1.index t a * S1x32x512x128.size a + S1x32x512x128.size a := by
  show i ∈ ((View.whole main_v103).slice (win0_1.rect t)).set ↔ _
  rw [View.set_slice_whole, Rect.mem_set_unit]
  exact Iff.rfl

/-- The 64 blocks cover the output array: index (t, b, p, q) is in the block of the point with coordinates (t, b / 32). -/
theorem cover1 (i : S4x512x512x128.Idx) :
    ∃ t : Fin cfg0.N, (cfg0.win 1).flush t = true ∧ i ∈ ((cfg0.win 1).blk t).view.set := by
  have hi0 : (i 0).val < 4 := (i 0).isLt
  have hi1 : (i 1).val < 512 := (i 1).isLt
  have hi2 : (i 2).val < 512 := (i 2).isLt
  have hi3 : (i 3).val < 128 := (i 3).isLt
  obtain ⟨t, ht⟩ := idx_onto ⟨(i 0).val, hi0⟩ ⟨(i 1).val / 32, by omega⟩
  have q0 : win0_1.index t (0 : Fin 4) = (i 0).val := congrFun ht 0
  have q1 : win0_1.index t (1 : Fin 4) = (i 1).val / 32 := congrFun ht 1
  have q2 : win0_1.index t (2 : Fin 4) = 0 := congrFun ht 2
  have q3 : win0_1.index t (3 : Fin 4) = 0 := congrFun ht 3
  refine ⟨t, flush0_1 t, ?_⟩
  rw [mem_blk1]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 32 ≤ (i 1).val ∧ (i 1).val < win0_1.index t (1 : Fin 4) * 32 + 32; omega
  | ⟨2, _⟩ => show win0_1.index t (2 : Fin 4) * 512 ≤ (i 2).val ∧ (i 2).val < win0_1.index t (2 : Fin 4) * 512 + 512; omega
  | ⟨3, _⟩ => show win0_1.index t (3 : Fin 4) * 128 ≤ (i 3).val ∧ (i 3).val < win0_1.index t (3 : Fin 4) * 128 + 128; omega

/-- THE OUTPUT ARRAY after the run: the stacked input copied to every batch row. -/
theorem final1 (c : Dev nD) : (dats m 0 c).arrAt 1 cfg0.N = Cert.Layout.spread (V m c main_v102) :=
  (dats m 0 c).arrAt_eq_of_cover 1 (Cert.Layout.spread (V m c main_v102)) (fun t _ => flushed1_eq m c t) cover1

/-! ## The stacked input is the stack of the four sequences -/

set_option maxHeartbeats 8000000 in
/-- The host operations leave `main_v98` at type 1's compacted sequence under a leading unit axis: each operation's result
    read at its own buffer, in order. -/
theorem V_piece0 (c : Dev nD) :
    V m c main_v98 = broadcastInDim Cert.Layout.S1seq ![1, 2] Cert.Spec.bc_lead
      (Cert.Spec.seqOf 1#32 (m ((c : Thread nD τ).loc main_arg0)) (m ((c : Thread nD τ).loc main_arg1))) := by
  show StableHlo.after (List.flatten (stretches (F := F))) (fun b => m (c, b)) (Proc.devRef .tc main_v98) = _
  simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  (try simp only [StableHlo.TRef.ofBuf, StableHlo.TRef.toBuf, cast_eq])
  rfl

set_option maxHeartbeats 8000000 in
/-- The host operations leave `main_v99` at type 2's compacted sequence under a leading unit axis: each operation's result
    read at its own buffer, in order. -/
theorem V_piece1 (c : Dev nD) :
    V m c main_v99 = broadcastInDim Cert.Layout.S1seq ![1, 2] Cert.Spec.bc_lead
      (Cert.Spec.seqOf 2#32 (m ((c : Thread nD τ).loc main_arg0)) (m ((c : Thread nD τ).loc main_arg1))) := by
  show StableHlo.after (List.flatten (stretches (F := F))) (fun b => m (c, b)) (Proc.devRef .tc main_v99) = _
  simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  (try simp only [StableHlo.TRef.ofBuf, StableHlo.TRef.toBuf, cast_eq])
  rfl

set_option maxHeartbeats 8000000 in
/-- The host operations leave `main_v100` at type 3's compacted sequence under a leading unit axis: each operation's result
    read at its own buffer, in order. -/
theorem V_piece2 (c : Dev nD) :
    V m c main_v100 = broadcastInDim Cert.Layout.S1seq ![1, 2] Cert.Spec.bc_lead
      (Cert.Spec.seqOf 3#32 (m ((c : Thread nD τ).loc main_arg0)) (m ((c : Thread nD τ).loc main_arg1))) := by
  show StableHlo.after (List.flatten (stretches (F := F))) (fun b => m (c, b)) (Proc.devRef .tc main_v100) = _
  simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  (try simp only [StableHlo.TRef.ofBuf, StableHlo.TRef.toBuf, cast_eq])
  rfl

set_option maxHeartbeats 8000000 in
/-- The host operations leave `main_v101` at type 4's compacted sequence under a leading unit axis: each operation's result
    read at its own buffer, in order. -/
theorem V_piece3 (c : Dev nD) :
    V m c main_v101 = broadcastInDim Cert.Layout.S1seq ![1, 2] Cert.Spec.bc_lead
      (Cert.Spec.seqOf 4#32 (m ((c : Thread nD τ).loc main_arg0)) (m ((c : Thread nD τ).loc main_arg1))) := by
  show StableHlo.after (List.flatten (stretches (F := F))) (fun b => m (c, b)) (Proc.devRef .tc main_v101) = _
  simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  (try simp only [StableHlo.TRef.ofBuf, StableHlo.TRef.toBuf, cast_eq])
  rfl

set_option maxHeartbeats 8000000 in
/-- The last host operation concatenates the four pieces: `main_v102` is their concatenation, each piece as the line
    leaves it (the concatenate writes none of them). -/
theorem V_concat (c : Dev nD) :
    V m c main_v102 = concatenate S4x512x128 0 [⟨S1x512x128, V m c main_v98⟩, ⟨S1x512x128, V m c main_v99⟩,
      ⟨S1x512x128, V m c main_v100⟩, ⟨S1x512x128, V m c main_v101⟩] concatenates_S1x512x128_S1x512x128_S1x512x128_S1x512x128_S4x512x128_d0 := by
  show StableHlo.after (List.flatten (stretches (F := F))) (fun b => m (c, b)) (Proc.devRef .tc main_v102)
    = concatenate S4x512x128 0 [⟨S1x512x128, StableHlo.after (List.flatten (stretches (F := F))) (fun b => m (c, b)) (Proc.devRef .tc main_v98)⟩,
      ⟨S1x512x128, StableHlo.after (List.flatten (stretches (F := F))) (fun b => m (c, b)) (Proc.devRef .tc main_v99)⟩,
      ⟨S1x512x128, StableHlo.after (List.flatten (stretches (F := F))) (fun b => m (c, b)) (Proc.devRef .tc main_v100)⟩,
      ⟨S1x512x128, StableHlo.after (List.flatten (stretches (F := F))) (fun b => m (c, b)) (Proc.devRef .tc main_v101)⟩] _
  simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, after_cons, after_nil]
  rw [nary4_result, nary_result_ne _ _ _ _ _ _ (show main_v98 ≠ main_v102 by decide), nary_result_ne _ _ _ _ _ _ (show main_v99 ≠ main_v102 by decide),
    nary_result_ne _ _ _ _ _ _ (show main_v100 ≠ main_v102 by decide), nary_result_ne _ _ _ _ _ _ (show main_v101 ≠ main_v102 by decide)]
  rfl

/-- So `main_v102` is the stack of the four types' compacted sequences of the launch's argument arrays. -/
theorem V_stack (c : Dev nD) :
    V m c main_v102 = Cert.Layout.stacked Cert.Spec.bc_lead Cert.Spec.cat3
      (Cert.Spec.seqs (m ((c : Thread nD τ).loc main_arg0)) (m ((c : Thread nD τ).loc main_arg1))) := by
  rw [V_concat, V_piece0, V_piece1, V_piece2, V_piece3]
  rfl

/-! ## The run, read -/

/-- Every weakly fair execution of the idealized kernel's @main terminates with the result array at the expanded array of
    the four sequences of the launch's arguments, and the arguments unchanged. -/
theorem run : θ_run defs (onTc (τ := τ) (main (F := F))) ⟨m, fun _ => 0, ρ⟩ fun r => ∀ c : Dev nD,
      r.2.mem ((c.tc : Thread nD τ).loc main_v103)
        = Cert.Layout.expanded Cert.Spec.bc_lead Cert.Spec.bc_batch Cert.Spec.bc_lead4 Cert.Spec.cat4
            (Cert.Spec.seqs (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 1).trans ((final1 m c).trans (by
        rw [V_stack]
        exact Cert.Layout.spread_stacked Cert.Spec.bc_lead Cert.Spec.bc_batch Cert.Spec.bc_lead4 Cert.Spec.cat3 Cert.Spec.cat4 _)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Val

end
-- ==== Proof.LibHostChain.lean ====
/-
  Two general facts about a host block stated as a chain of stretches of operations.

  * A chain of straight lines of host operations, each line a `StableHlo.seq`, is the one straight line of all the
    operations in order: binding is associative and a line's closing `pure` is a left unit.
  * A property that holds of every element of every list of a list of lists holds of every element of its concatenation.
-/
import Idealize.ShloMosaic.Lib.StableHlo.Run
import Idealize.ShloMosaic.Lib.Pipeline.Regions

noncomputable section

namespace Cert.Lib

open Idealize.ShloMosaic Idealize.SL.Sem

/-- The chain of the lines `seq l₀, seq l₁, …` is `seq (l₀ ++ l₁ ++ …)`. -/
theorem chain_map_seq {nD : Nat} {τ : Topo} {sig : RefSig} {Val : EltTy → Type} {Λ : Labels} :
    ∀ opss : List (List (HloOp τ sig Val)),
      (Pipeline.chain (opss.map fun l => (StableHlo.seq l : Prog (TpuEff nD τ sig Val Λ .tc) PUnit))) = StableHlo.seq opss.flatten
  | [] => rfl
  | l :: opss => by
    rw [List.map_cons, Pipeline.chain_cons, List.flatten_cons, StableHlo.seq_append, chain_map_seq opss]

/-- `List.Forall` passes from the lists of a list to its concatenation. -/
theorem forall_flatten {α : Type} {p : α → Prop} (L : List (List α)) (h : L.Forall fun l => l.Forall p) : L.flatten.Forall p :=
  List.forall_iff_forall_mem.mpr fun x hx => by
    obtain ⟨l, hl, hx'⟩ := List.mem_flatten.mp hx
    exact List.forall_iff_forall_mem.mp (List.forall_iff_forall_mem.mp h l hl) x hx'

end Cert.Lib

end
-- ==== Proof.RefRun.lean ====
/-
  The reference's run, read back: @main has no kernel, so it is one straight line of host operations — the seventeen
  stretches in order — and every weakly fair execution ends with each buffer at the fold of the operations' results over
  the launch memory. Read at the result buffer that fold is, operation by operation, the expanded array of the four types'
  compacted sequences of the launch's argument arrays; no operation writes an argument.
-/
import proofs.«100555_j42863773614188_1_alg».proof.Proof.RefSegments
import proofs.«100555_j42863773614188_1_alg».proof.Proof.Spec
import proofs.«100555_j42863773614188_1_alg».proof.Proof.LibHostChain
import Idealize.ShloMosaic.Lib.StableHlo.Run

set_option maxRecDepth 16384

noncomputable section

namespace Cert.ReferenceIdeal.Val

open Cert.ReferenceIdeal Cert.ReferenceIdeal.Gen
open Idealize.ShloMosaic Idealize.ShloMosaic.TcCoe Idealize.SL.Sem Idealize.ShloMosaic.StableHlo

variable {F : FTy → Type} [FloatOps F]

/-- The seventeen stretches of @main, in order, -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
/-- and all its operations as one line. -/
abbrev ops : List (HloOp τ sig (Elt F)) := List.flatten (stretches (F := F))

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is that line. -/
theorem main_eq (c : Dev nD) : main (F := F) c = seq ops := by
  rw [main_chain]
  exact Cert.Lib.chain_map_seq stretches

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  Cert.Lib.forall_flatten stretches (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)

theorem ops_fresh : (ops : List (HloOp τ sig (Elt F))).Forall fun op => op.fresh = ∅ :=
  Cert.Lib.forall_flatten stretches (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩)

/-- Every weakly fair execution of @main terminates with every buffer at the fold of the operations over the launch memory. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

set_option maxHeartbeats 8000000 in
/-- The line leaves `main_v106` at type 1's compacted sequence, repeated over the batch, under a leading unit axis: each
    operation's result read at its own buffer, in order. -/
theorem piece0 (m : (ℓ : Loc nD τ sig) → Buf (Elt F) ℓ) (d : Dev nD) :
    after (ops (F := F)) (launchContents m d) (Proc.devRef .tc main_v106)
      = broadcastInDim Cert.Layout.S1bat ![1, 2, 3] Cert.Spec.bc_lead4 (broadcastInDim Cert.Layout.Sbat ![0, 1, 2] Cert.Spec.bc_batch
          (broadcastInDim Cert.Layout.S1seq ![1, 2] Cert.Spec.bc_lead
            (Cert.Spec.seqOf 1#32 (m ((d.tc : Thread nD τ).loc main_arg0)) (m ((d.tc : Thread nD τ).loc main_arg1))))) := by
  simp only [ops, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  (try simp only [StableHlo.TRef.ofBuf, StableHlo.TRef.toBuf, cast_eq])
  rfl

set_option maxHeartbeats 8000000 in
/-- The line leaves `main_v107` at type 2's compacted sequence, repeated over the batch, under a leading unit axis: each
    operation's result read at its own buffer, in order. -/
theorem piece1 (m : (ℓ : Loc nD τ sig) → Buf (Elt F) ℓ) (d : Dev nD) :
    after (ops (F := F)) (launchContents m d) (Proc.devRef .tc main_v107)
      = broadcastInDim Cert.Layout.S1bat ![1, 2, 3] Cert.Spec.bc_lead4 (broadcastInDim Cert.Layout.Sbat ![0, 1, 2] Cert.Spec.bc_batch
          (broadcastInDim Cert.Layout.S1seq ![1, 2] Cert.Spec.bc_lead
            (Cert.Spec.seqOf 2#32 (m ((d.tc : Thread nD τ).loc main_arg0)) (m ((d.tc : Thread nD τ).loc main_arg1))))) := by
  simp only [ops, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  (try simp only [StableHlo.TRef.ofBuf, StableHlo.TRef.toBuf, cast_eq])
  rfl

set_option maxHeartbeats 8000000 in
/-- The line leaves `main_v108` at type 3's compacted sequence, repeated over the batch, under a leading unit axis: each
    operation's result read at its own buffer, in order. -/
theorem piece2 (m : (ℓ : Loc nD τ sig) → Buf (Elt F) ℓ) (d : Dev nD) :
    after (ops (F := F)) (launchContents m d) (Proc.devRef .tc main_v108)
      = broadcastInDim Cert.Layout.S1bat ![1, 2, 3] Cert.Spec.bc_lead4 (broadcastInDim Cert.Layout.Sbat ![0, 1, 2] Cert.Spec.bc_batch
          (broadcastInDim Cert.Layout.S1seq ![1, 2] Cert.Spec.bc_lead
            (Cert.Spec.seqOf 3#32 (m ((d.tc : Thread nD τ).loc main_arg0)) (m ((d.tc : Thread nD τ).loc main_arg1))))) := by
  simp only [ops, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  (try simp only [StableHlo.TRef.ofBuf, StableHlo.TRef.toBuf, cast_eq])
  rfl

set_option maxHeartbeats 8000000 in
/-- The line leaves `main_v109` at type 4's compacted sequence, repeated over the batch, under a leading unit axis: each
    operation's result read at its own buffer, in order. -/
theorem piece3 (m : (ℓ : Loc nD τ sig) → Buf (Elt F) ℓ) (d : Dev nD) :
    after (ops (F := F)) (launchContents m d) (Proc.devRef .tc main_v109)
      = broadcastInDim Cert.Layout.S1bat ![1, 2, 3] Cert.Spec.bc_lead4 (broadcastInDim Cert.Layout.Sbat ![0, 1, 2] Cert.Spec.bc_batch
          (broadcastInDim Cert.Layout.S1seq ![1, 2] Cert.Spec.bc_lead
            (Cert.Spec.seqOf 4#32 (m ((d.tc : Thread nD τ).loc main_arg0)) (m ((d.tc : Thread nD τ).loc main_arg1))))) := by
  simp only [ops, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  (try simp only [StableHlo.TRef.ofBuf, StableHlo.TRef.toBuf, cast_eq])
  rfl

set_option maxHeartbeats 8000000 in
/-- The last operation concatenates the four pieces: the result buffer is their concatenation, each piece as the line
    leaves it (the concatenate writes none of them). -/
theorem out_concat (m : (ℓ : Loc nD τ sig) → Buf (Elt F) ℓ) (d : Dev nD) :
    after (ops (F := F)) (launchContents m d) (Proc.devRef .tc main_v110)
      = concatenate S4x512x512x128 0 [⟨S1x512x512x128, after (ops (F := F)) (launchContents m d) (Proc.devRef .tc main_v106)⟩,
          ⟨S1x512x512x128, after (ops (F := F)) (launchContents m d) (Proc.devRef .tc main_v107)⟩,
          ⟨S1x512x512x128, after (ops (F := F)) (launchContents m d) (Proc.devRef .tc main_v108)⟩,
          ⟨S1x512x512x128, after (ops (F := F)) (launchContents m d) (Proc.devRef .tc main_v109)⟩]
          concatenates_S1x512x512x128_S1x512x512x128_S1x512x512x128_S1x512x512x128_S4x512x512x128_d0 := by
  simp only [ops, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, after_cons, after_nil]
  rw [nary4_result, nary_result_ne _ _ _ _ _ _ (show main_v106 ≠ main_v110 by decide), nary_result_ne _ _ _ _ _ _ (show main_v107 ≠ main_v110 by decide),
    nary_result_ne _ _ _ _ _ _ (show main_v108 ≠ main_v110 by decide), nary_result_ne _ _ _ _ _ _ (show main_v109 ≠ main_v110 by decide)]
  rfl

/-- The result buffer after the line: the expanded array of the four sequences of the launch's arguments. -/
theorem out_eq (m : (ℓ : Loc nD τ sig) → Buf (Elt F) ℓ) (d : Dev nD) :
    after (ops (F := F)) (launchContents m d) (Proc.devRef .tc main_v110)
      = Cert.Layout.expanded Cert.Spec.bc_lead Cert.Spec.bc_batch Cert.Spec.bc_lead4 Cert.Spec.cat4
          (Cert.Spec.seqs (m ((d.tc : Thread nD τ).loc main_arg0)) (m ((d.tc : Thread nD τ).loc main_arg1))) := by
  rw [out_concat, piece0, piece1, piece2, piece3]
  rfl

set_option maxHeartbeats 4000000 in
/-- No operation writes the embeddings. -/
theorem arg0_kept (m : (ℓ : Loc nD τ sig) → Buf (Elt F) ℓ) (d : Dev nD) :
    after (ops (F := F)) (launchContents m d) (Proc.devRef .tc main_arg0) = m ((d.tc : Thread nD τ).loc main_arg0) :=
  StableHlo.after_of_forall_not_mem (b := Proc.devRef .tc main_arg0) _ _ (List.forall_iff_forall_mem.mp (by
    simp only [ops, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

set_option maxHeartbeats 4000000 in
/-- No operation writes the behaviour types. -/
theorem arg1_kept (m : (ℓ : Loc nD τ sig) → Buf (Elt F) ℓ) (d : Dev nD) :
    after (ops (F := F)) (launchContents m d) (Proc.devRef .tc main_arg1) = m ((d.tc : Thread nD τ).loc main_arg1) :=
  StableHlo.after_of_forall_not_mem (b := Proc.devRef .tc main_arg1) _ _ (List.forall_iff_forall_mem.mp (by
    simp only [ops, stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- The run, read: the result at the expanded array of the four sequences, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v110)
        = Cert.Layout.expanded Cert.Spec.bc_lead Cert.Spec.bc_batch Cert.Spec.bc_lead4 Cert.Spec.cat4
            (Cert.Spec.seqs (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v110).trans (out_eq m c),
      (h c main_arg0).trans (arg0_kept m c),
      (h c main_arg1).trans (arg1_kept m c)⟩)
    (run_after m ρ)

end Cert.ReferenceIdeal.Val

end
-- ==== Proof.lean ====
/-
  The kernel and its reference compute the same [4, 512, 512, 128] array: over the extended reals, from memories that
  agree on the embeddings [512, 512, 128] and the behaviour types [512, 512], both end with equal results.

  Both programs first build, for each behaviour type k = 1, 2, 3, 4, the compacted right-aligned sequence of the rows of
  that type (a running count, a slot per valid row, a scatter of whole rows into a zeroed buffer, a slice): the SAME chain of
  host operations, carried here as one function of the two arguments and never opened. They differ only in how the four
  [512, 128] sequences become the result:
    * the reference repeats each over the batch axis and concatenates the four: entry (t, b, p, q) is sequence t at (p, q);
    * the kernel stacks the four into [4, 512, 128] and a pallas_call on a 4 × 16 grid copies row-block t of the stack to
      batch rows 32 g … 32 g + 31 at point (t, g); the 64 blocks tile the result, so its entry (t, b, p, q) is the stack's
      (t, p, q), again sequence t at (p, q).
  No arithmetic on floats is done anywhere, so the precondition (finite inputs) is not used and the agreement is a pure
  re-indexing law. The three programs run, fault nowhere and leave their arguments as launched: for the two kernel programs
  by the launch theorem for one region after a host prefix over the body's triple, for the reference because it is one
  straight line of host operations none of which writes an argument. The ideal pass rewrote nothing, so there is nothing to
  preserve.
-/
import proofs.«100555_j42863773614188_1_alg».proof.Defs
import proofs.«100555_j42863773614188_1_alg».proof.Proof.Gen.Kernel
import proofs.«100555_j42863773614188_1_alg».proof.Proof.Gen.KernelIdeal
import proofs.«100555_j42863773614188_1_alg».proof.Proof.Gen.ReferenceIdeal
import proofs.«100555_j42863773614188_1_alg».proof.Proof.Gen.Pre_finite_inputs
import proofs.«100555_j42863773614188_1_alg».proof.Proof.KernelFrame
import proofs.«100555_j42863773614188_1_alg».proof.Proof.KernelIdealValue
import proofs.«100555_j42863773614188_1_alg».proof.Proof.RefRun
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Frm.frame m ρ

/-- The idealized kernel runs and keeps its arguments. -/
theorem frame_ki : Cert.frame_KernelIdeal := fun m ρ _ => Cert.KernelIdeal.Frm.frame m ρ

/-- The idealized reference runs and keeps its arguments: its run, with the result dropped. -/
theorem frame_ri : Cert.frame_ReferenceIdeal := fun m ρ _ =>
  (θ_run Cert.ReferenceIdeal.defs _ _).mono (fun _ h c => (h c).2) (Cert.ReferenceIdeal.Val.run (F := Ideal) m ρ)

/-- Both runs end at the expanded array of the four sequences of their own arguments; the arguments agree. -/
theorem algebraic : Cert.algebraic_KernelIdeal_ReferenceIdeal := by
  intro m ρ m' ρ' _ hagree
  refine ⟨_, Cert.KernelIdeal.Val.run (F := Ideal) m ρ, ?_⟩
  refine (θ_run Cert.ReferenceIdeal.defs _ _).mono (fun _ h c => ⟨(h c).1.trans ?_, (h c).2⟩)
    (Cert.ReferenceIdeal.Val.run (F := Ideal) m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
